-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x4096.size a
  hwx0_3 : ∀ i : grid0.Coords, EltTy.bits .f32 = 32 ∨ (Rect.block (s := S2048x4096) S512x512.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S2048x4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S2048x4096, .f32⟩
  | .hbm, ⟨42, _⟩ => ⟨S2048x4096, .f32⟩
  | .hbm, ⟨43, _⟩ => ⟨S_, .f32⟩
  | .hbm, ⟨44, _⟩ => ⟨S2048x4096, .f32⟩
  | .hbm, ⟨45, _⟩ => ⟨S2048x4096, .i1⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .f32⟩
  | .hbm, ⟨56, _⟩ => ⟨S2048x4096, .f32⟩
  | .hbm, ⟨57, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_call4_v0 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Pieces.lean ====
/-
  What one grid point leaves behind, as pure terms of what it loaded (any float instance).

  The body keeps a 512×512 accumulator in scratch across the four points of a K-run.  Writing
  `step x w a = a + fx x ⬝ fx w` for the generated payload `k0_pay2` (one 512×1024 by 1024×512 product of the snapped
  blocks added to `a`), `zero` for `k0_pay1` and `finish a b` for `k0_pay3` (snap, add the snapped bias row, rectify,
  snap), the three control cases leave:
    first point of a run   accumulator = step x w zero            (the zero fill is read straight back)
    middle points          accumulator = step x w (previous accumulator)
    last point of a run    accumulator = step x w (previous), and the output block = finish (that accumulator) b.
  Each is read off the stores the body's run found: every store fills its whole buffer, so the last store into a buffer
  is what it holds, and a load through the whole buffer reads what was there.
-/
import proofs.«143449_j73890617361017_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The zero offsets of a whole-buffer access. -/
theorem hz2 : (![0, 0] : Fin 2 → Nat) = fun _ => 0 := by
  funext a; match a with | ⟨0, _⟩ => rfl | ⟨1, _⟩ => rfl

/-- First point of a run: the accumulator is one product step over the zero fill. -/
theorem sout_A (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 : Vec F S512x1024 .f32) (x1 : Vec F S1024x512 .f32) (x2 : Vec F S1x512 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) hz2, View.readCov_unit_zero (S := S512x512) _ hz2]
  simp only [View.readAt_eq_ld, harg3.read_unread, harg4.read_unread, View.ld_unit_zero (S := S512x1024) hz2,
    View.ld_unit_zero (S := S1024x512) hz2]

/-- A middle point: one product step over the accumulator the point before left. -/
theorem sout_B (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 : Vec F S512x1024 .f32) (x1 : Vec F S1024x512 .f32) (x2 : Vec F S1x512 .f32) (xs0 : Vec F S512x512 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x512) hz2]
  simp only [View.readAt_eq_ld, harg3.read_unread, harg4.read_unread, harg7.read_unread,
    View.ld_unit_zero (S := S512x1024) hz2, View.ld_unit_zero (S := S1024x512) hz2, View.ld_unit_zero (S := S512x512) hz2]

/-- Last point of a run: the output block is the epilogue of the accumulator after this point's step, and the bias row. -/
theorem out_C (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x1024 .f32) (x1 : Vec F S1024x512 .f32) (x2 : Vec F S1x512 .f32) (xs0 : Vec F S512x512 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S512x512) hz2, View.readCov_unit_zero (S := S512x512) _ hz2]
  simp only [View.readAt_eq_ld, harg3.read_unread, harg4.read_unread, harg5.read_unread, harg7.read_unread,
    View.ld_unit_zero (S := S512x1024) hz2, View.ld_unit_zero (S := S1024x512) hz2, View.ld_unit_zero (S := S512x512) hz2,
    View.ld_unit_zero (S := S1x512) hz2]

/-- Last point of a run: the accumulator itself is one more product step. -/
theorem sout_C (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 : Vec F S512x1024 .f32) (x1 : Vec F S1024x512 .f32) (x2 : Vec F S1x512 .f32) (xs0 : Vec F S512x512 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x512) hz2]
  simp only [View.readAt_eq_ld, harg3.read_unread, harg4.read_unread, harg7.read_unread,
    View.ld_unit_zero (S := S512x1024) hz2, View.ld_unit_zero (S := S1024x512) hz2, View.ld_unit_zero (S := S512x512) hz2]

end Cert.KernelIdeal.Pieces

end
-- ==== Proof.FixedPoint.lean ====
/-
  The fixed-point dense layer as one function of its three argument arrays, on the extended reals.

  Every value is snapped to the grid of multiples of 2⁻¹⁶: `fx v = rne (v · 2¹⁶) · 2⁻¹⁶`, with `rne` rounding to the
  nearest integer, ties to even.  The layer is
      out[i, j] = fx (relu (fx (∑ₖ fx x[i, k] · fx w[k, j]) + fx b[j])),      relu y = y if 0 ≤ y, else 0.
  Two spellings of `fx` occur.  One multiplies the rounded value by the word 2⁻¹⁶; the other divides it by the
  word 2¹⁶ and writes the result as `v + (rne (v · 2¹⁶) / 2¹⁶ - v)`.  On a FINITE `v` the two agree (`fx_detour`):
  `v` cancels in the reals, and dividing by 2¹⁶ is multiplying by 2⁻¹⁶.  At an infinity they differ (`⊤ + (⊤ - ⊤) = ⊥`),
  so finiteness is carried along: `fx`, `relu` and finite sums of products keep a real a real.
  Last, the contraction over 4096 indices taken in four consecutive runs of 1024, accumulated from zero
  in order, is the whole sum (`prefixSum_three`): regrouping only, true in any commutative monoid.
-/
import Idealize.ShloMosaic.PureOps.Ideal
import Idealize.ShloMosaic.PureOps.Ideal.Laws
import Idealize.ShloMosaic.Lib.ValueIdx

noncomputable section

open scoped BigOperators

namespace Cert.FxDense

open Idealize.ShloMosaic Idealize.ShloMosaic.ValueIdx

/-! ## The two scale words -/

/-- The word `0x47800000` is 2¹⁶ = 65536. -/
theorem scale_val : Ideal.ofBits .f32 0x47800000#32 = ((65536 : ℝ) : EReal) := by
  simp [Ideal.ofBits, Ideal.ieee, -EReal.coe_mul]; norm_num

/-- The word `0x37800000` is 2⁻¹⁶ = 1/65536. -/
theorem inv_scale_val : Ideal.ofBits .f32 0x37800000#32 = ((1 / 65536 : ℝ) : EReal) := by
  simp [Ideal.ofBits, Ideal.ieee, -EReal.coe_mul]; norm_num

/-! ## Snapping to the grid, and the rectifier -/

/-- `fx v = rne (v · 2¹⁶) · 2⁻¹⁶`: the nearest multiple of 2⁻¹⁶, ties to the even multiple. -/
def fx (v : EReal) : EReal :=
  Ideal.liftRound Ideal.roundHalfEven (v * Ideal.ofBits .f32 0x47800000#32) * Ideal.ofBits .f32 0x37800000#32

/-- `relu y`: `y` where `0 ≤ y`, zero elsewhere. -/
def relu (y : EReal) : EReal :=
  Scalar.select (Ideal.cmp .oge y (Ideal.ofBits .f32 0x00000000#32)) y (Ideal.ofBits .f32 0x00000000#32)

/-- On a real, `fx` is a real. -/
theorem fx_coe (r : ℝ) : fx (r : EReal) = (((Ideal.roundHalfEven (r * 65536) : ℤ) : ℝ) * (1 / 65536) : ℝ) := by
  unfold fx
  rw [scale_val, inv_scale_val, ← EReal.coe_mul, Ideal.liftRound_coe, ← EReal.coe_mul]

/-- A finite value stays finite under `fx`. -/
theorem fx_finite {v : EReal} (h : ∃ r : ℝ, v = r) : ∃ r : ℝ, fx v = r := by
  obtain ⟨r, rfl⟩ := h
  exact ⟨_, fx_coe r⟩

/-- A finite value stays finite under `relu`. -/
theorem relu_finite {v : EReal} (h : ∃ r : ℝ, v = r) : ∃ r : ℝ, relu v = r := by
  obtain ⟨r, rfl⟩ := h
  unfold relu Scalar.select
  rw [Ideal.ofBits_zero_f32]
  split_ifs
  · exact ⟨r, rfl⟩
  · exact ⟨0, EReal.coe_zero.symm⟩

/-- THE DETOUR. On a finite `v`, `v + (rne (v · 2¹⁶) / 2¹⁶ - v)` is `fx v`: `v` cancels, and the quotient by 2¹⁶ is the
    product with 2⁻¹⁶. -/
theorem fx_detour {v : EReal} (h : ∃ r : ℝ, v = r) :
    v + (Ideal.div (Ideal.liftRound Ideal.roundHalfEven (v * Ideal.ofBits .f32 0x47800000#32))
        (Ideal.ofBits .f32 0x47800000#32) - v) = fx v := by
  obtain ⟨r, rfl⟩ := h
  rw [fx_coe, scale_val, Ideal.div_coe (by norm_num : (65536 : ℝ) ≠ 0), ← EReal.coe_mul, Ideal.liftRound_coe,
    ← EReal.coe_mul, ← EReal.coe_sub, ← EReal.coe_add]
  congr 1
  ring

/-! ## Finite sums of products of reals -/

/-- A finite sum of reals, summed in the extended reals, is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A contraction of finite values is finite. -/
theorem dot_finite {ι : Type*} [Fintype ι] (a b : ι → EReal) (ha : ∀ k, ∃ r : ℝ, a k = r) (hb : ∀ k, ∃ r : ℝ, b k = r) :
    ∃ r : ℝ, ∑ k, a k * b k = r := by
  choose ra hra using ha
  choose rb hrb using hb
  refine ⟨∑ k, ra k * rb k, ?_⟩
  rw [← sum_coe]
  exact Finset.sum_congr rfl fun k _ => by rw [hra, hrb, EReal.coe_mul]

/-! ## The contraction in four runs -/

section Runs
variable {M : Type*} [AddCommMonoid M]

/-- The part of a sum over 4096 indices that runs over the 1024 consecutive indices from `o`. -/
def runSum (f : Fin 4096 → M) (o : ℕ) (ho : o + 1024 ≤ 4096) : M := ∑ q : Fin 1024, f ⟨o + q.val, by omega⟩

/-- The runs accumulated from zero, in order: `prefixSum f n` holds the first `n + 1` of the four. -/
def prefixSum (f : Fin 4096 → M) : ℕ → M
  | 0 => 0 + runSum f (1024 * 0) (by norm_num)
  | 1 => (0 + runSum f (1024 * 0) (by norm_num)) + runSum f (1024 * 1) (by norm_num)
  | 2 => ((0 + runSum f (1024 * 0) (by norm_num)) + runSum f (1024 * 1) (by norm_num)) + runSum f (1024 * 2) (by norm_num)
  | _ => (((0 + runSum f (1024 * 0) (by norm_num)) + runSum f (1024 * 1) (by norm_num)) + runSum f (1024 * 2) (by norm_num))
      + runSum f (1024 * 3) (by norm_num)

/-- Each further run is added to what the runs before it gave. -/
theorem prefixSum_succ (f : Fin 4096 → M) (j : ℕ) (hj : j < 3) :
    prefixSum f (j + 1) = prefixSum f j + runSum f (1024 * (j + 1)) (by omega) := by
  interval_cases j <;> rfl

/-- All four runs are the whole sum: a regrouping, true in any commutative monoid. -/
theorem prefixSum_three (f : Fin 4096 → M) : prefixSum f 3 = ∑ k, f k := by
  have e : ∑ k, f k = ∑ p : Fin 4 × Fin 1024, f (finProdFinEquiv p) :=
    (Equiv.sum_comp (finProdFinEquiv (m := 4) (n := 1024)) f).symm
  rw [e, Fintype.sum_prod_type, Fin.sum_univ_four]
  show (((0 + _) + _) + _) + _ = _
  rw [zero_add]
  refine congrArg₂ _ (congrArg₂ _ (congrArg₂ _ ?_ ?_) ?_) ?_ <;>
    exact Finset.sum_congr rfl fun q _ => congrArg f (Fin.ext (by simp [finProdFinEquiv]; try omega))

end Runs

/-! ## The layer -/

/-- The layer's result at index `(i, j)`: `fx (relu (fx (∑ₖ fx x[i, k] · fx w[k, j]) + fx b[j]))`. -/
def layer (X : (⟨2, ![2048, 4096]⟩ : Shape).Idx → EReal) (W : (⟨2, ![4096, 4096]⟩ : Shape).Idx → EReal)
    (B : (⟨1, ![4096]⟩ : Shape).Idx → EReal) : (⟨2, ![2048, 4096]⟩ : Shape).Idx → EReal := fun j =>
  fx (relu (fx (∑ k : Fin 4096, fx (X (ix2 (j 0) k)) * fx (W (ix2 k (j 1)))) + fx (B (ix1 (j 1)))))

end Cert.FxDense

end
-- ==== Proof.Payload.lean ====
/-
  The three payloads of the body read at one index, on the extended reals.

  With `fx v = rne (v · 2¹⁶) · 2⁻¹⁶` and `relu` as in the specification:
    zero fill            `zero (p, q) = 0`
    one product step     `step x w a (p, q) = a (p, q) + ∑ₖ fx x[p, k] · fx w[k, q]`      (k over the block's 1024 columns)
    the epilogue         `finish a b (p, q) = fx (relu (fx a[p, q] + fx b[0, q]))`.
  The narrowing of the snapped operands before the matrix product is the identity on extended reals, and the matrix
  product into a zero accumulator is the plain sum over the one contracted axis: row `p` of the left operand against
  column `q` of the right one.
-/
import proofs.«143449_j73890617361017_1_alg».proof.Proof.Gen.KernelIdeal.Skeleton
import proofs.«143449_j73890617361017_1_alg».proof.Proof.FixedPoint
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.FxDense

/-! ## The matrix product's operand indices: output `(p, q)`, contraction `k` ↦ left `(p, k)`, right `(k, q)` -/

theorem lhs_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_col (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_row (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_col (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The block product into a zero accumulator, at `(p, q)`: the sum over `k` of `l[p, k] · r[k, q]`. -/
theorem product_apply (l : FVec Ideal S512x1024 .bf16) (r : FVec Ideal S1024x512 .bf16) (p q : Fin 512) :
    matmul dot_S512x1024_S1024x512_S512x512_1_0_0_1_n_n none l r (constant S512x512 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 p q) ((ValueIdx.contrEquiv1 dot_S512x1024_S1024x512_S512x512_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x512_S512x512_1_0_0_1_n_n.rhsIdx (ix2 p q) ((ValueIdx.contrEquiv1 dot_S512x1024_S1024x512_S512x512_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## The payloads -/

/-- The zero fill. -/
theorem zero_apply (j : S512x512.Idx) : k0_pay1 (F := Ideal) j = 0 := by
  unfold k0_pay1
  simp only [shapeCast_self]
  exact Ideal.ofBits_zero_f32

/-- One product step: the accumulator plus the block's contraction of the snapped operands. -/
theorem step_apply (x : Vec Ideal S512x1024 .f32) (w : Vec Ideal S1024x512 .f32) (a : Vec Ideal S512x512 .f32) (p q : Fin 512) :
    k0_pay2 x w a (ix2 p q) = a (ix2 p q) + ∑ k : Fin 1024, fx (x (ix2 p k)) * fx (w (ix2 k q)) := by
  unfold k0_pay2
  simp only [shapeCast_self]
  rw [addf_apply, product_apply]
  rfl

/-- The epilogue: snap the accumulator, add the snapped bias of column `q`, rectify, snap. -/
theorem finish_apply (a : Vec Ideal S512x512 .f32) (b : Vec Ideal S1x512 .f32) (p q : Fin 512) :
    k0_pay3 a b (ix2 p q) = fx (relu (fx (a (ix2 p q)) + fx (b (ix2 0 q)))) := by
  have hb : ∀ v : FVec Ideal S1x512 .f32,
      broadcastTo S512x512 v broadcasts_S1x512_S512x512 (ix2 p q) = v (ix2 0 q) := fun v =>
    broadcastTo_apply v broadcasts_S1x512_S512x512 (ix2 p q) (ix2 0 q) (fun a => match a with
      | ⟨0, _⟩ => by show 0 = if (1 : Nat) = 1 then 0 else _; rw [if_pos rfl]
      | ⟨1, _⟩ => by show q.val = if (512 : Nat) = 1 then 0 else q.val; rw [if_neg (by decide)])
  have e : k0_pay3 a b (ix2 p q)
      = fx (relu (fx (a (ix2 p q)) + broadcastTo S512x512 (fun i => fx (b i)) broadcasts_S1x512_S512x512 (ix2 p q))) := by
    unfold k0_pay3
    simp only [shapeCast_self]
    rfl
  rw [e, hb]

end Cert.KernelIdeal.Payload

end
-- ==== Proof.Blocks.lean ====
/-
  Where each window's block sits in its array.

  The grid is 4 × 8 × 4, walked row-major: point `t` has row-block `t / 32`, column-block `(t / 4) % 8` and K-run position
  `t % 4`.  At point `t`
    the x block is rows `512·(t/32) …`, columns `1024·(t%4) …` of x;
    the w block is rows `1024·(t%4) …`, columns `512·((t/4)%8) …` of w;
    the bias block is columns `512·((t/4)%8) …` of the bias, which the program first re-lays as one row of 4096;
    the output block is rows `512·(t/32) …`, columns `512·((t/4)%8) …` of the result.
  A block's entry `y` is the array's entry at (block index × block size + y), axis by axis.
-/
import proofs.«143449_j73890617361017_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The index maps over the grid (decided point by point) -/

theorem xidx : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
theorem widx : ∀ t : Fin cfg0.N, win0_1.index t (0 : Fin 2) = t.val % 4 ∧ win0_1.index t (1 : Fin 2) = t.val / 4 % 8 :=
  (by decide +kernel : ∀ t : Fin grid0.N, win0_1.index t (0 : Fin 2) = t.val % 4 ∧ win0_1.index t (1 : Fin 2) = t.val / 4 % 8)
theorem bidx : ∀ t : Fin cfg0.N, win0_2.index t (0 : Fin 2) = 0 ∧ win0_2.index t (1 : Fin 2) = t.val / 4 % 8 :=
  (by decide +kernel : ∀ t : Fin grid0.N, win0_2.index t (0 : Fin 2) = 0 ∧ win0_2.index t (1 : Fin 2) = t.val / 4 % 8)
theorem oidx : ∀ t : Fin cfg0.N, win0_3.index t (0 : Fin 2) = t.val / 32 ∧ win0_3.index t (1 : Fin 2) = t.val / 4 % 8 :=
  (by decide +kernel : ∀ t : Fin grid0.N, win0_3.index t (0 : Fin 2) = t.val / 32 ∧ win0_3.index t (1 : Fin 2) = t.val / 4 % 8)

/-! ## The input blocks read at an index -/

/-- The x block at point `t`, entry `(p, k)`, is `x[512·(t/32) + p, 1024·(t%4) + k]`. -/
theorem xblk_apply (c : Dev nD) (t : Fin cfg0.N) (p : Fin 512) (k : Fin 1024) (r : Fin 2048) (s : Fin 4096)
    (hr : r.val = 512 * (t.val / 32) + p.val) (hs : s.val = 1024 * (t.val % 4) + k.val) :
    (iblk m c 0 t : Vec F S512x1024 .f32) (ix2 p k) = m ((c : Thread nD τ).loc main_arg0) (ix2 r s) := by
  have hi := xidx t
  unfold iblk
  rw [View.read_apply]
  show V m c main_arg0 _ = _
  rw [V_main_arg0]
  congr 1
  funext a
  apply Fin.ext
  match a with
  | ⟨0, _⟩ => show win0_0.index t 0 * 512 + 1 * p.val = r.val; rw [hi.1, hr]; omega
  | ⟨1, _⟩ => show win0_0.index t 1 * 1024 + 1 * k.val = s.val; rw [hi.2, hs]; omega

/-- The w block at point `t`, entry `(k, q)`, is `w[1024·(t%4) + k, 512·((t/4)%8) + q]`. -/
theorem wblk_apply (c : Dev nD) (t : Fin cfg0.N) (k : Fin 1024) (q : Fin 512) (r : Fin 4096) (s : Fin 4096)
    (hr : r.val = 1024 * (t.val % 4) + k.val) (hs : s.val = 512 * (t.val / 4 % 8) + q.val) :
    (iblk m c 1 t : Vec F S1024x512 .f32) (ix2 k q) = m ((c : Thread nD τ).loc main_arg1) (ix2 r s) := by
  have hi := widx t
  unfold iblk
  rw [View.read_apply]
  show V m c main_arg1 _ = _
  rw [V_main_arg1]
  congr 1
  funext a
  apply Fin.ext
  match a with
  | ⟨0, _⟩ => show win0_1.index t 0 * 1024 + 1 * k.val = r.val; rw [hi.1, hr]; omega
  | ⟨1, _⟩ => show win0_1.index t 1 * 512 + 1 * q.val = s.val; rw [hi.2, hs]; omega

/-- The bias, re-laid as one row before the region, entry `(0, s)` is `b[s]`. -/
theorem bias_row (c : Dev nD) (z : Fin 1) (s : Fin 4096) :
    (V m c main_v0 : S1x4096.Idx → Elt F .f32) (ix2 z s) = m ((c : Thread nD τ).loc main_arg2) (ix1 s) := by
  have e : (V m c main_v0 : S1x4096.Idx → Elt F .f32)
      = shapeCast S1x4096 (m ((c : Thread nD τ).loc main_arg2)) shapeCasts_S4096_S1x4096 := by
    dsimp only [Gen.V, Gen.hostOps0]; after_results; rfl
  rw [e]
  refine shapeCast_apply _ _ (ix2 z s) (ix1 s) ?_
  have hz : z.val = 0 := by omega
  rw [Shape.rowMajor_val_two, Shape.rowMajor_val_one]
  show s.val = z.val * 4096 + s.val
  omega

/-- The bias block at point `t`, entry `(0, q)`, is `b[512·((t/4)%8) + q]`. -/
theorem bblk_apply (c : Dev nD) (t : Fin cfg0.N) (z : Fin 1) (q : Fin 512) (s : Fin 4096)
    (hs : s.val = 512 * (t.val / 4 % 8) + q.val) :
    (iblk m c 2 t : Vec F S1x512 .f32) (ix2 z q) = m ((c : Thread nD τ).loc main_arg2) (ix1 s) := by
  have hi := bidx t
  rw [← bias_row m c 0 s]
  unfold iblk
  rw [View.read_apply]
  show V m c main_v0 _ = _
  congr 1
  funext a
  apply Fin.ext
  match a with
  | ⟨0, _⟩ => show win0_2.index t 0 * 1 + 1 * z.val = 0; rw [hi.1]; omega
  | ⟨1, _⟩ => show win0_2.index t 1 * 512 + 1 * q.val = s.val; rw [hi.2, hs]; omega

end Cert.KernelIdeal.Blocks

end
-- ==== Proof.Accumulate.lean ====
/-
  The kernel's run, read as the layer.

  Over the four points of one K-run (same row-block, same column-block, positions 0 to 3) the scratch accumulator at entry
  `(p, q)` holds the runs of the contraction for result entry `(r, s) = (512·rowblock + p, 512·colblock + q)` accumulated so
  far: after position `n` it is `prefixSum (term r s) n` (`acc_inv`, by induction on the point: the first point adds its run
  to the zero fill, each later point adds its run to what the point before left).  At position 3 all four runs are in, so
  the accumulator is the whole contraction `∑ₖ fx x[r, k] · fx w[k, s]`, and the block written back is the epilogue of that and
  the bias: the layer's value at `(r, s)` (`flushed_eq`).  The 4 × 8 output blocks written at the positions 3 tile the result
  array (`cover`), so the array ends holding the layer of the three arguments (`final`, `run`).
-/
import proofs.«143449_j73890617361017_1_alg».proof.Proof.Gen.KernelIdeal.Value
import proofs.«143449_j73890617361017_1_alg».proof.Proof.Pieces
import proofs.«143449_j73890617361017_1_alg».proof.Proof.Payload
import proofs.«143449_j73890617361017_1_alg».proof.Proof.Blocks
import proofs.«143449_j73890617361017_1_alg».proof.Proof.FixedPoint

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.FxDense
open Idealize.ShloMosaic.Pipeline (Dat)

variable (m : (ℓ : Loc nD τ sig) → Buf (Elt Ideal) ℓ) (ρ : Dev nD → PrngReg)

/-- The three argument arrays, as launched. -/
abbrev xarr (c : Dev nD) : S2048x4096.Idx → EReal := m ((c : Thread nD τ).loc main_arg0)
abbrev warr (c : Dev nD) : S4096x4096.Idx → EReal := m ((c : Thread nD τ).loc main_arg1)
abbrev barr (c : Dev nD) : S4096.Idx → EReal := m ((c : Thread nD τ).loc main_arg2)

/-- The input blocks at a point. -/
abbrev xblk (c : Dev nD) (t : Fin cfg0.N) : Vec Ideal S512x1024 .f32 := iblk m c 0 t
abbrev wblk (c : Dev nD) (t : Fin cfg0.N) : Vec Ideal S1024x512 .f32 := iblk m c 1 t
abbrev bblk (c : Dev nD) (t : Fin cfg0.N) : Vec Ideal S1x512 .f32 := iblk m c 2 t

/-- The layer of the launched arguments: what the result array is to hold. -/
abbrev result (c : Dev nD) : S2048x4096.Idx → EReal := layer (xarr m c) (warr m c) (barr m c)

/-- One term of the contraction for result entry `(r, s)`: `fx x[r, k] · fx w[k, s]`. -/
def term (c : Dev nD) (r : Fin 2048) (s : Fin 4096) : Fin 4096 → EReal :=
  fun k => fx (xarr m c (ix2 r k)) * fx (warr m c (ix2 k s))

/-- The contraction over one point's blocks is the run of the whole contraction that starts at that point's K offset. -/
theorem block_run (c : Dev nD) (t : Fin cfg0.N) (p q : Fin 512) (r : Fin 2048) (s : Fin 4096)
    (hr : r.val = 512 * (t.val / 32) + p.val) (hs : s.val = 512 * (t.val / 4 % 8) + q.val)
    (o : ℕ) (ho : o + 1024 ≤ 4096) (hot : o = 1024 * (t.val % 4)) :
    ∑ k : Fin 1024, fx (xblk m c t (ix2 p k)) * fx (wblk m c t (ix2 k q)) = runSum (term m c r s) o ho := by
  unfold runSum term
  refine Finset.sum_congr rfl fun k _ => ?_
  exact congrArg₂ (fun a b => fx a * fx b)
    (Blocks.xblk_apply m c t p k r ⟨o + k.val, by omega⟩ hr (by show o + k.val = _; omega))
    (Blocks.wblk_apply m c t k q ⟨o + k.val, by omega⟩ s (by show o + k.val = _; omega) hs)

/-- THE ACCUMULATOR after point `n`, at entry `(p, q)`: the first `n % 4 + 1` runs of the contraction for the result
    entry that `(p, q)` is in the point's output block. -/
theorem acc_inv (c : Dev nD) : ∀ (n : ℕ) (hn : n < cfg0.N) (p q : Fin 512) (r : Fin 2048) (s : Fin 4096),
    r.val = 512 * (n / 32) + p.val → s.val = 512 * (n / 4 % 8) + q.val →
    (outsAt0 m c n hn).2 (ix2 p q) = prefixSum (term m c r s) (n % 4) := by
  intro n
  induction n using Nat.strong_induction_on with
  | _ n ih =>
  intro hn p q r s hr hs
  have hN : n < 128 := lt_of_lt_of_eq hn N_0
  by_cases h0 : n % 4 = 0
  · have h1 : ¬n % 4 = 3 := by omega
    have e : (outsAt0 m c n hn).2 = k0_pay2 (xblk m c ⟨n, hn⟩) (wblk m c ⟨n, hn⟩) (k0_pay1 (F := Ideal)) := by
      rw [outsAt0_A m c ⟨n, hn⟩ h0 h1]
      dsimp only
      exact Pieces.sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩)
    rw [e, Payload.step_apply, Payload.zero_apply, h0]
    show 0 + _ = 0 + runSum _ (1024 * 0) _
    exact congrArg (0 + ·) (block_run m c ⟨n, hn⟩ p q r s hr hs (1024 * 0) (by norm_num) (by show 1024 * 0 = 1024 * (n % 4); omega))
  · obtain ⟨j, hj⟩ : ∃ j, n % 4 = j + 1 := ⟨n % 4 - 1, by omega⟩
    have hprev : (n - 1) % 4 = j := by omega
    have hlt : n - 1 < cfg0.N := Nat.lt_of_le_of_lt (Nat.sub_le _ _) hn
    have e : (outsAt0 m c n hn).2 = k0_pay2 (xblk m c ⟨n, hn⟩) (wblk m c ⟨n, hn⟩) ((outsAt0 m c (n - 1) hlt).2) := by
      by_cases h1 : n % 4 = 3
      · rw [outsAt0_C m c ⟨n, hn⟩ h0 h1]
        dsimp only
        exact Pieces.sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) ((outsAt0 m c (n - 1) hlt).2)
      · rw [outsAt0_B m c ⟨n, hn⟩ h0 h1]
        dsimp only
        exact Pieces.sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) ((outsAt0 m c (n - 1) hlt).2)
    rw [e, Payload.step_apply, ih (n - 1) (by omega) hlt p q r s (by omega) (by omega), hprev, hj,
      prefixSum_succ _ j (by omega)]
    exact congrArg (prefixSum (term m c r s) j + ·)
      (block_run m c ⟨n, hn⟩ p q r s hr hs (1024 * (j + 1)) (by omega) (by show 1024 * (j + 1) = 1024 * (n % 4); omega))

/-- THE BLOCK WRITTEN BACK at the last point of a K-run, entry `(p, q)`: the layer at the result entry `(r, s)` it lands on.
    All four runs of the contraction are in (the three the points before left, and this point's), the epilogue snaps the
    contraction, adds the snapped bias `b[s]`, rectifies and snaps. -/
theorem block_value (c : Dev nD) (t : Fin cfg0.N) (h1 : t.val % 4 = 3) (hlt : t.val - 1 < cfg0.N)
    (p q : Fin 512) (r : Fin 2048) (s : Fin 4096)
    (hr : r.val = 512 * (t.val / 32) + p.val) (hs : s.val = 512 * (t.val / 4 % 8) + q.val) :
    k0_pay3 (k0_pay2 (xblk m c t) (wblk m c t) ((outsAt0 m c (t.val - 1) hlt).2)) (bblk m c t) (ix2 p q)
      = result m c (ix2 r s) := by
  have hN : t.val < 128 := lt_of_lt_of_eq t.isLt N_0
  have eb : bblk m c t (ix2 0 q) = barr m c (ix1 s) := Blocks.bblk_apply m c t 0 q s hs
  rw [Payload.finish_apply, Payload.step_apply, acc_inv m c (t.val - 1) hlt p q r s (by omega) (by omega),
    show (t.val - 1) % 4 = 2 by omega,
    block_run m c t p q r s hr hs (1024 * (2 + 1)) (by norm_num) (by omega),
    ← prefixSum_succ (term m c r s) 2 (by norm_num), prefixSum_three, eb]
  rfl

/-- An index of the result array is in point `t`'s output block iff each coordinate is in the block's range. -/
theorem mem_oblk (t : Fin cfg0.N) (i : S2048x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- WHAT A WRITE-BACK WRITES is its block of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  have hlt : t.val - 1 < cfg0.N := Nat.lt_of_le_of_lt (Nat.sub_le _ _) t.isLt
  obtain ⟨e0, e1⟩ := Blocks.oidx t
  refine (Value.flushed3_C m c t h0 h1).trans ?_
  rw [Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) ((outsAt0 m c (t.val - 1) hlt).2)]
  funext j
  rw [View.read_apply]
  have key : ∀ (y : S512x512.Idx) (i : S2048x4096.Idx), (i 0).val = 512 * (t.val / 32) + (y 0).val →
      (i 1).val = 512 * (t.val / 4 % 8) + (y 1).val →
      k0_pay3 (k0_pay2 (xblk m c t) (wblk m c t) ((outsAt0 m c (t.val - 1) hlt).2)) (bblk m c t) y = result m c i := by
    intro y i hy0 hy1
    rw [eq_ix2 y, eq_ix2 i]
    exact block_value m c t h1 hlt (y 0) (y 1) (i 0) (i 1) hy0 hy1
  refine key _ _ ?_ ?_
  · show win0_3.index t 0 * 512 + 1 * (j 0).val = 512 * (t.val / 32) + (j 0).val
    rw [e0]; omega
  · show win0_3.index t 1 * 512 + 1 * (j 1).val = 512 * (t.val / 4 % 8) + (j 1).val
    rw [e1]; omega

/-- THE OUTPUT BLOCKS TILE THE RESULT: entry `(i₀, i₁)` is in the block written at the last point of the K-run of row-block
    `i₀ / 512` and column-block `i₁ / 512`. -/
theorem cover (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  obtain ⟨tn, htn⟩ : ∃ tn : ℕ, tn = ((i 0).val / 512 * 8 + (i 1).val / 512) * 4 + 3 := ⟨_, rfl⟩
  have hlt : tn < cfg0.N := by rw [show cfg0.N = 128 from N_0]; omega
  obtain ⟨e0, e1⟩ := Blocks.oidx ⟨tn, hlt⟩
  refine ⟨⟨tn, hlt⟩, (flush0_3 _).mpr (by show tn % 4 = 3; omega), ?_⟩
  rw [mem_oblk]
  intro a
  match a with
  | ⟨0, _⟩ =>
    show win0_3.index ⟨tn, hlt⟩ 0 * 512 ≤ (i 0).val ∧ (i 0).val < win0_3.index ⟨tn, hlt⟩ 0 * 512 + 512
    rw [e0]; show tn / 32 * 512 ≤ (i 0).val ∧ (i 0).val < tn / 32 * 512 + 512; omega
  | ⟨1, _⟩ =>
    show win0_3.index ⟨tn, hlt⟩ 1 * 512 ≤ (i 1).val ∧ (i 1).val < win0_3.index ⟨tn, hlt⟩ 1 * 512 + 512
    rw [e1]; show tn / 4 % 8 * 512 ≤ (i 1).val ∧ (i 1).val < tn / 4 % 8 * 512 + 512; omega

/-- So the result array ends holding the layer of the launched arguments. -/
theorem final (c : Dev nD) : (dats m 0 c).arrAt 3 cfg0.N = result m c :=
  (dats m 0 c).arrAt_eq_of_cover 3 (result m c) (fun t hf => flushed_eq m c t hf) cover

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Acc

end
-- ==== Proof.RefLayer.lean ====
/-
  The reference, stage by stage, is the layer — on finite arguments.

  The reference snaps a value `v` by the detour `v + (rne (v · 2¹⁶) / 2¹⁶ - v)`, five times: on x, on w, on their product, on
  the bias, and on the rectified sum.  Each time the value snapped is finite (an argument; a contraction of snapped finite
  values; a rectified sum of finite values), so the detour is `fx` (`fx_detour`), and the stages compose to
  `fx (relu (fx (∑ₖ fx x[i, k] · fx w[k, j]) + fx b[j]))`.
-/
import proofs.«143449_j73890617361017_1_alg».proof.Proof.Gen.ReferenceIdeal.Read
import proofs.«143449_j73890617361017_1_alg».proof.Proof.FixedPoint

noncomputable section

open scoped BigOperators

namespace Cert.ReferenceIdeal.RefLayer

open Cert.ReferenceIdeal Cert.ReferenceIdeal.Read Idealize.ShloMosaic Idealize.ShloMosaic.ValueIdx Cert.FxDense

variable (X : S2048x4096.Idx → EReal) (W : S4096x4096.Idx → EReal) (B : S4096.Idx → EReal)

/-- The snapped x. -/
theorem xq_apply (hX : ∀ i, ∃ r : ℝ, X i = r) (i : S2048x4096.Idx) : val_main_v6 (F := Ideal) X i = fx (X i) := by
  rw [val_main_v6_apply, val_main_v5_apply, val_main_v4_apply, val_main_v2_apply, val_main_v1_apply, val_main_v0_apply,
    val_main_cst_apply, val_main_v3_apply, val_main_cst_0_apply]
  exact fx_detour (hX i)

/-- The snapped w. -/
theorem wq_apply (hW : ∀ i, ∃ r : ℝ, W i = r) (i : S4096x4096.Idx) : val_main_v13 (F := Ideal) W i = fx (W i) := by
  rw [val_main_v13_apply, val_main_v12_apply, val_main_v11_apply, val_main_v9_apply, val_main_v8_apply, val_main_v7_apply,
    val_main_cst_1_apply, val_main_v10_apply, val_main_cst_2_apply]
  exact fx_detour (hW i)

/-- The snapped bias. -/
theorem bq_apply (hB : ∀ i, ∃ r : ℝ, B i = r) (i : S4096.Idx) : val_main_v28 (F := Ideal) B i = fx (B i) := by
  rw [val_main_v28_apply, val_main_v27_apply, val_main_v26_apply, val_main_v24_apply, val_main_v23_apply, val_main_v22_apply,
    val_main_cst_5_apply, val_main_v25_apply, val_main_cst_6_apply]
  exact fx_detour (hB i)

/-- The product of the snapped operands: row `i 0` of x against column `i 1` of w. -/
theorem dot_apply (hX : ∀ i, ∃ r : ℝ, X i = r) (hW : ∀ i, ∃ r : ℝ, W i = r) (i : S2048x4096.Idx) :
    val_main_v14 (F := Ideal) X W i = ∑ k : Fin 4096, fx (X (ix2 (i 0) k)) * fx (W (ix2 k (i 1))) := by
  rw [val_main_v14_apply]
  refine Finset.sum_congr rfl fun k _ => ?_
  have el : lidx_main_v14 i k = ix2 (i 0) k := funext fun a => by
    match a with
    | ⟨0, _⟩ => rfl
    | ⟨1, _⟩ => rfl
  have er : ridx_main_v14 i k = ix2 k (i 1) := funext fun a => by
    match a with
    | ⟨0, _⟩ => rfl
    | ⟨1, _⟩ => rfl
  rw [xq_apply X hX, wq_apply W hW, el, er]
  rfl

/-- It is finite. -/
theorem dot_finite' (hX : ∀ i, ∃ r : ℝ, X i = r) (hW : ∀ i, ∃ r : ℝ, W i = r) (i : S2048x4096.Idx) :
    ∃ r : ℝ, val_main_v14 (F := Ideal) X W i = r := by
  rw [dot_apply X W hX hW]
  exact dot_finite _ _ (fun k => fx_finite (hX _)) (fun k => fx_finite (hW _))

/-- The snapped product. -/
theorem yq_apply (hX : ∀ i, ∃ r : ℝ, X i = r) (hW : ∀ i, ∃ r : ℝ, W i = r) (i : S2048x4096.Idx) :
    val_main_v21 (F := Ideal) X W i = fx (val_main_v14 (F := Ideal) X W i) := by
  rw [val_main_v21_apply, val_main_v20_apply, val_main_v19_apply, val_main_v17_apply, val_main_v16_apply, val_main_v15_apply,
    val_main_cst_3_apply, val_main_v18_apply, val_main_cst_4_apply]
  exact fx_detour (dot_finite' X W hX hW i)

/-- The sum with the bias, before the rectifier. -/
theorem sum_apply (hX : ∀ i, ∃ r : ℝ, X i = r) (hW : ∀ i, ∃ r : ℝ, W i = r) (hB : ∀ i, ∃ r : ℝ, B i = r) (i : S2048x4096.Idx) :
    val_main_v31 (F := Ideal) X W B i
      = fx (∑ k : Fin 4096, fx (X (ix2 (i 0) k)) * fx (W (ix2 k (i 1)))) + fx (B (ix1 (i 1))) := by
  have eb : idx_main_v29 (idx_main_v30 i) = ix1 (i 1) := funext fun a => by
    match a with
    | ⟨0, _⟩ => rfl
  rw [val_main_v31_apply, yq_apply X W hX hW, dot_apply X W hX hW, val_main_v30_apply, val_main_v29_apply, bq_apply B hB, eb]
  rfl

/-- The rectified sum. -/
theorem relu_apply (hX : ∀ i, ∃ r : ℝ, X i = r) (hW : ∀ i, ∃ r : ℝ, W i = r) (hB : ∀ i, ∃ r : ℝ, B i = r) (i : S2048x4096.Idx) :
    val_main_v34 (F := Ideal) X W B i
      = relu (fx (∑ k : Fin 4096, fx (X (ix2 (i 0) k)) * fx (W (ix2 k (i 1)))) + fx (B (ix1 (i 1)))) := by
  rw [val_main_v34_apply, val_main_v33_apply, sum_apply X W B hX hW hB, val_main_v32_apply, val_main_cst_7_apply,
    val_main_call4_v0_apply, val_main_cst_8_apply]
  rfl

/-- THE REFERENCE IS THE LAYER, on finite arguments. -/
theorem result_eq (hX : ∀ i, ∃ r : ℝ, X i = r) (hW : ∀ i, ∃ r : ℝ, W i = r) (hB : ∀ i, ∃ r : ℝ, B i = r) :
    val_main_v41 (F := Ideal) X W B = layer X W B := by
  funext i
  have hfin : ∃ r : ℝ, val_main_v34 (F := Ideal) X W B i = r := by
    rw [relu_apply X W B hX hW hB]
    obtain ⟨a, ha⟩ := fx_finite (dot_finite (fun k => fx (X (ix2 (i 0) k))) (fun k => fx (W (ix2 k (i 1))))
      (fun k => fx_finite (hX _)) (fun k => fx_finite (hW _)))
    obtain ⟨b, hb⟩ := fx_finite (hB (ix1 (i 1)))
    exact relu_finite ⟨a + b, by rw [ha, hb, EReal.coe_add]⟩
  rw [val_main_v41_apply, val_main_v40_apply, val_main_v39_apply, val_main_v37_apply, val_main_v36_apply, val_main_v35_apply,
    val_main_cst_9_apply, val_main_v38_apply, val_main_cst_10_apply]
  refine (fx_detour hfin).trans ?_
  rw [relu_apply X W B hX hW hB]
  rfl

end Cert.ReferenceIdeal.RefLayer

end
-- ==== Proof.Finite.lean ====
/-
  What the precondition says: every entry of the three arguments is a real number.

  The printed predicate is `all (|x| < +∞) ∧ all (|w| < +∞) ∧ all (|b| < +∞)`, each `all` a reduction by `and` from `true`.
  It is `1`, so each conjunct is `1`, so each compared entry is: `max v (-v) < ⊤` (the word `0x7F800000` is `+∞`).
  On the extended reals that excludes both infinities: `v = ⊤` gives `max ⊤ ⊥ = ⊤`, `v = ⊥` gives `max ⊥ ⊤ = ⊤`.
-/
import proofs.«143449_j73890617361017_1_alg».proof.Pre_finite_inputs
import proofs.«143449_j73890617361017_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

/-- The scalar shape has one index. -/
instance : Subsingleton S_.Idx := ⟨fun a b => funext fun d => d.elim0⟩

/-- The word `0x7F800000` is `+∞`. -/
theorem inf_val : Ideal.ofBits .f32 0x7F800000#32 = ⊤ := by simp [Ideal.ofBits, Ideal.ieee]

/-- An extended real whose absolute value is below `+∞` is a real. -/
theorem real_of_abs_lt (v : EReal) (h : Ideal.cmp .olt (max v (-v)) (Ideal.ofBits .f32 0x7F800000#32) = 1#1) :
    ∃ r : ℝ, v = r := by
  rw [inf_val] at h
  induction v using EReal.rec with
  | bot => exact absurd h (by simp [Ideal.cmp])
  | top => exact absurd h (by simp [Ideal.cmp])
  | coe r => exact ⟨r, rfl⟩

/-- Under the precondition all three arguments hold reals only. -/
theorem finite_of_pre (X : FVec Ideal S2048x4096 .f32) (W : FVec Ideal S4096x4096 .f32) (B : FVec Ideal S4096 .f32)
    (h : fn (F := Ideal) X W B = fun _ => 1#1) :
    (∀ i, ∃ r : ℝ, X i = r) ∧ (∀ i, ∃ r : ℝ, W i = r) ∧ (∀ i, ∃ r : ℝ, B i = r) := by
  have h0 := congrFun h ValueIdx.ix0
  dsimp only [fn] at h0
  obtain ⟨hxw, hb⟩ := IntOp.andi_eq_one.1 h0
  obtain ⟨hx, hw⟩ := IntOp.andi_eq_one.1 hxw
  exact ⟨fun i => real_of_abs_lt _ (Host.reduce_andi_all _ _ _ _ _ hx i),
    fun i => real_of_abs_lt _ (Host.reduce_andi_all _ _ _ _ _ hw i),
    fun i => real_of_abs_lt _ (Host.reduce_andi_all _ _ _ _ _ hb i)⟩

end Cert.Pre_finite_inputs.Finite

end
-- ==== Proof.lean ====
/-
  A dense layer in 16-bit fixed point — `out = fx (relu (fx (fx x ⬝ fx w) + fx b))`, where `fx v = rne (v · 2¹⁶) · 2⁻¹⁶` snaps to the
  grid of multiples of 2⁻¹⁶ and `relu` zeroes the negatives — computed two ways and shown equal on the extended reals,
  for finite x [2048, 4096], w [4096, 4096], b [4096].

  The kernel walks a 4 × 8 × 4 grid of 512 × 512 output blocks and 1024-wide K-runs.  At each point it snaps its x and w
  blocks, multiplies them and adds the product into a scratch accumulator that the first point of a K-run zeroes; at the last
  point of the run it snaps the accumulator, adds the snapped bias row, rectifies, snaps and writes the block out.  The
  reference snaps whole arrays, by the detour `v + (rne (v · 2¹⁶) / 2¹⁶ - v)`, around one matrix product.

  Why they agree (Proof/FixedPoint.lean has the laws):
    * on a finite value the detour is `fx`: `v` cancels and `/ 2¹⁶` is `· 2⁻¹⁶` (this is where finiteness is used; every value
      the reference snaps is finite because the arguments are, Proof/Finite.lean, and `fx`, `relu` and finite sums of
      products keep a real a real);
    * the contraction over 4096 taken as four runs of 1024 accumulated from zero is the whole sum (regrouping);
    * narrowing the snapped operands before the product changes nothing on the extended reals.
  The kernel's side: Proof/Pieces.lean (what a point leaves), Proof/Payload.lean (those terms at an index), Proof/Blocks.lean
  (where a block sits in its array), Proof/Accumulate.lean (the accumulator over a K-run, the blocks written back, the cover).
  The reference's side: Proof/RefLayer.lean.  The three frames are the generated ones; nothing was idealized away, so the
  kernel's idealization has nothing to preserve.
-/
import proofs.«143449_j73890617361017_1_alg».proof.Defs
import proofs.«143449_j73890617361017_1_alg».proof.Proof.Gen.Kernel
import proofs.«143449_j73890617361017_1_alg».proof.Proof.Gen.Kernel.Skeleton
import proofs.«143449_j73890617361017_1_alg».proof.Proof.Gen.Kernel.Launch
import proofs.«143449_j73890617361017_1_alg».proof.Proof.Gen.Kernel.Points
import proofs.«143449_j73890617361017_1_alg».proof.Proof.Gen.Kernel.Frame
import proofs.«143449_j73890617361017_1_alg».proof.Proof.Gen.KernelIdeal
import proofs.«143449_j73890617361017_1_alg».proof.Proof.Gen.KernelIdeal.Skeleton
import proofs.«143449_j73890617361017_1_alg».proof.Proof.Gen.KernelIdeal.Launch
import proofs.«143449_j73890617361017_1_alg».proof.Proof.Gen.KernelIdeal.Points
import proofs.«143449_j73890617361017_1_alg».proof.Proof.Gen.KernelIdeal.Frame
import proofs.«143449_j73890617361017_1_alg».proof.Proof.Gen.ReferenceIdeal
import proofs.«143449_j73890617361017_1_alg».proof.Proof.Gen.Pre_finite_inputs
import proofs.«143449_j73890617361017_1_alg».proof.Proof.Gen.KernelIdeal.Value
import proofs.«143449_j73890617361017_1_alg».proof.Proof.Gen.ReferenceIdeal.Run
import proofs.«143449_j73890617361017_1_alg».proof.Proof.Gen.ReferenceIdeal.Read
import proofs.«143449_j73890617361017_1_alg».proof.Proof.Accumulate
import proofs.«143449_j73890617361017_1_alg».proof.Proof.RefLayer
import proofs.«143449_j73890617361017_1_alg».proof.Proof.Finite
import Idealize.ShloMosaic.Adequacy
import Idealize.ShloMosaic.Init

noncomputable section

namespace Cert.Proof

open Idealize.ShloMosaic Idealize.SL.Sem

/-- The kernel as printed runs, and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of whole-array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both programs end with the layer of the arguments: the kernel block by block over its K-runs, the reference stage by
    stage, its five detours collapsing on the finite values the precondition gives. -/
theorem algebraic : Cert.algebraic_KernelIdeal_ReferenceIdeal := by
  intro m ρ m' ρ' hpre hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB⟩ := Cert.Pre_finite_inputs.Finite.finite_of_pre _ _ _ (hpre c)
  rw [Cert.ReferenceIdeal.Read.val_main_v41_eq, (hagree c).1, (hagree c).2.1, (hagree c).2.2]
  exact Cert.ReferenceIdeal.RefLayer.result_eq _ _ _ hX hW hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
